-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x2048 : Shape := ⟨2, ![11008, 2048]⟩
abbrev S11008x1 : Shape := ⟨2, ![11008, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_

variable [Facts]

def fn {F : FTy → Type} [FloatOps F] (main_arg0 : FVec F S4x2048x4096 .f32) (main_arg1 : IVec S11008x2048 32) (main_arg2 : FVec F S11008x1 .f32) (main_arg3 : FVec F S11008x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008x1 .f32 := Host.absf main_arg3
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  main_v13
-- ==== Kernel.lean ====
abbrev S4x2048x4096 : Shape := ⟨3, ![4, 2048, 4096]⟩
abbrev S11008x2048 : Shape := ⟨2, ![11008, 2048]⟩
abbrev S11008x1 : Shape := ⟨2, ![11008, 1]⟩
abbrev S8192x4096 : Shape := ⟨2, ![8192, 4096]⟩
abbrev S8192x2048x2 : Shape := ⟨3, ![8192, 2048, 2]⟩
abbrev S8192x2048x1 : Shape := ⟨3, ![8192, 2048, 1]⟩
abbrev S8192x2048 : Shape := ⟨2, ![8192, 2048]⟩
abbrev S8192x11008 : Shape := ⟨2, ![8192, 11008]⟩
abbrev S1024x2048 : Shape := ⟨2, ![1024, 2048]⟩
abbrev S256x2048 : Shape := ⟨2, ![256, 2048]⟩
abbrev S256x1 : Shape := ⟨2, ![256, 1]⟩
abbrev S1024x256 : Shape := ⟨2, ![1024, 256]⟩
abbrev S4x2048x11008 : Shape := ⟨3, ![4, 2048, 11008]⟩

abbrev nBuf : Space → Nat
  | .hbm => 14
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008x1, .f32⟩
  | .hbm, ⟨3, _⟩ => ⟨S11008x1, .f32⟩
  | .hbm, ⟨4, _⟩ => ⟨S8192x4096, .f32⟩
  | .hbm, ⟨5, _⟩ => ⟨S8192x2048x2, .f32⟩
  | .hbm, ⟨6, _⟩ => ⟨S8192x2048x1, .f32⟩
  | .hbm, ⟨7, _⟩ => ⟨S8192x2048, .f32⟩
  | .hbm, ⟨8, _⟩ => ⟨S8192x2048, .bf16⟩
  | .hbm, ⟨9, _⟩ => ⟨S8192x2048x1, .f32⟩
  | .hbm, ⟨10, _⟩ => ⟨S8192x2048, .f32⟩
  | .hbm, ⟨11, _⟩ => ⟨S8192x2048, .bf16⟩
  | .hbm, ⟨12, _⟩ => ⟨S8192x11008, .f32⟩
  | .hbm, ⟨13, _⟩ => ⟨S4x2048x11008, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S256x2048, .i32⟩
  | .local _ .vmem, ⟨5, _⟩ => ⟨S256x2048, .i32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S1024x256, .f32⟩
  | .local _ .vmem, ⟨11, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  shapeCasts_S8192x4096_S8192x2048x2 : S8192x4096.ShapeCasts S8192x2048x2
  slices_S8192x2048x2_S8192x2048x1_0_0_0 : S8192x2048x2.Slices ![0, 0, 0] S8192x2048x1
  shapeCasts_S8192x2048x1_S8192x2048 : S8192x2048x1.ShapeCasts S8192x2048
  bitsLt_bf16_f32 : FTy.bits .bf16 < FTy.bits .f32
  slices_S8192x2048x2_S8192x2048x1_0_0_1 : S8192x2048x2.Slices ![0, 0, 1] S8192x2048x1
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  broadcasts_S256x1_S256x2048 : S256x1.Broadcasts S256x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S11008x2048.size a
  hwx0_2 : ∀ i : grid0.Coords, EltTy.bits .i32 = 32 ∨ (Rect.block (s := S11008x2048) S256x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S11008x1.size a
  hwx0_3 : ∀ i : grid0.Coords, EltTy.bits .f32 = 32 ∨ (Rect.block (s := S11008x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S11008x1.size a
  hwx0_4 : ∀ i : grid0.Coords, EltTy.bits .f32 = 32 ∨ (Rect.block (s := S11008x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x11008.size a
  hwx0_5 : ∀ i : grid0.Coords, EltTy.bits .f32 = 32 ∨ (Rect.block (s := S8192x11008) S1024x256.size (cc0_transform_5 i) (hinb0_5 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v4) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x2048 : Shape := ⟨2, ![11008, 2048]⟩
abbrev S11008x1 : Shape := ⟨2, ![11008, 1]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S4x2048x11008 : Shape := ⟨3, ![4, 2048, 11008]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008x1, .f32⟩
  | .hbm, ⟨3, _⟩ => ⟨S11008x1, .f32⟩
  | .hbm, ⟨4, _⟩ => ⟨S_, .i32⟩
  | .hbm, ⟨5, _⟩ => ⟨S11008x2048, .i32⟩
  | .hbm, ⟨6, _⟩ => ⟨S11008x2048, .i32⟩
  | .hbm, ⟨7, _⟩ => ⟨S11008x2048, .f32⟩
  | .hbm, ⟨8, _⟩ => ⟨S_, .i32⟩
  | .hbm, ⟨9, _⟩ => ⟨S11008x2048, .i32⟩
  | .hbm, ⟨10, _⟩ => ⟨S11008x2048, .i32⟩
  | .hbm, ⟨11, _⟩ => ⟨S_, .i32⟩
  | .hbm, ⟨12, _⟩ => ⟨S11008x2048, .i32⟩
  | .hbm, ⟨13, _⟩ => ⟨S11008x2048, .i32⟩
  | .hbm, ⟨14, _⟩ => ⟨S11008x2048, .f32⟩
  | .hbm, ⟨15, _⟩ => ⟨S11008x2048x1, .f32⟩
  | .hbm, ⟨16, _⟩ => ⟨S11008x2048x1, .f32⟩
  | .hbm, ⟨17, _⟩ => ⟨S11008x2048x2, .f32⟩
  | .hbm, ⟨18, _⟩ => ⟨S11008x4096, .f32⟩
  | .hbm, ⟨19, _⟩ => ⟨S11008x4096, .f32⟩
  | .hbm, ⟨20, _⟩ => ⟨S11008x4096, .f32⟩
  | .hbm, ⟨21, _⟩ => ⟨S11008x4096, .f32⟩
  | .hbm, ⟨22, _⟩ => ⟨S11008x4096, .f32⟩
  | .hbm, ⟨23, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  bcast_S11008x1_S11008x4096_0_1 : S11008x1.BroadcastsInDim S11008x4096 (![0, 1] : Fin 2 → Fin S11008x4096.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The mathematics both programs compute, stated once.

  A packed weight word q holds two 4-bit entries: the low nibble `q &&& 15` and the high nibble
  `(q >>> 4) &&& 15` (arithmetic shift), each read as a signed integer and then as a real number. Row n of the
  dequantized weight has, at even column 2k, the entry (low nibble of q[n,k] − zero[n]) · scale[n], and at odd
  column 2k+1 the entry (high nibble of q[n,k] − zero[n]) · scale[n].

  The linear layer's output entry is the contraction of an input row with such a weight row over all 4096
  columns. Grouping the columns by parity it is the sum over the 2048 even columns plus the sum over the 2048
  odd columns; that grouped form is what is written down here, as an extended real.
-/
import Idealize.ShloMosaic.PureOps.Ideal
import Idealize.ShloMosaic.Lib.ValueIdx

noncomputable section

namespace DequantLinear

open Idealize.ShloMosaic Idealize.ShloMosaic.ValueIdx

/-- The low nibble of a packed word, as an extended real. -/
def lowNib (q : BitVec 32) : EReal := (((IntOp.andi q 15#32).toInt : ℝ) : EReal)

/-- The high nibble of a packed word (bits 4 to 7 after an arithmetic shift right by 4), as an extended real. -/
def highNib (q : BitVec 32) : EReal := (((IntOp.andi (IntOp.shrsi .vector q 4#32) 15#32).toInt : ℝ) : EReal)

/-- The dequantized weight at row n, even column 2k. -/
def wEven (qw : (⟨2, ![11008, 2048]⟩ : Shape).Idx → BitVec 32) (s z : (⟨2, ![11008, 1]⟩ : Shape).Idx → EReal)
    (n : Fin 11008) (k : Fin 2048) : EReal :=
  (lowNib (qw (ix2 n k)) - z (ix2 n 0)) * s (ix2 n 0)

/-- The dequantized weight at row n, odd column 2k+1. -/
def wOdd (qw : (⟨2, ![11008, 2048]⟩ : Shape).Idx → BitVec 32) (s z : (⟨2, ![11008, 1]⟩ : Shape).Idx → EReal)
    (n : Fin 11008) (k : Fin 2048) : EReal :=
  (highNib (qw (ix2 n k)) - z (ix2 n 0)) * s (ix2 n 0)

/-- One output entry from the even-column half `a0` and the odd-column half `a1` of the flattened input
    (8192 rows of 2048 columns each): row r against weight row n. -/
def outEntry (a0 a1 : (⟨2, ![8192, 2048]⟩ : Shape).Idx → EReal)
    (qw : (⟨2, ![11008, 2048]⟩ : Shape).Idx → BitVec 32) (s z : (⟨2, ![11008, 1]⟩ : Shape).Idx → EReal)
    (r : Fin 8192) (n : Fin 11008) : EReal :=
  ∑ k : Fin 2048, a0 (ix2 r k) * wEven qw s z n k + ∑ k : Fin 2048, a1 (ix2 r k) * wOdd qw s z n k

/-- The flattened [8192, 11008] output as one function of the two input halves and the packed weight. -/
def outFlat (a0 a1 : (⟨2, ![8192, 2048]⟩ : Shape).Idx → EReal)
    (qw : (⟨2, ![11008, 2048]⟩ : Shape).Idx → BitVec 32) (s z : (⟨2, ![11008, 1]⟩ : Shape).Idx → EReal) :
    (⟨2, ![8192, 11008]⟩ : Shape).Idx → EReal :=
  fun j => outEntry a0 a1 qw s z (j 0) (j 1)

/-- One output entry of the [4, 2048, 11008] result from the unflattened input x: batch b, position t, output
    feature n. The even half reads x at columns 2k, the odd half at columns 2k+1. -/
def outRow (x : (⟨3, ![4, 2048, 4096]⟩ : Shape).Idx → EReal)
    (qw : (⟨2, ![11008, 2048]⟩ : Shape).Idx → BitVec 32) (s z : (⟨2, ![11008, 1]⟩ : Shape).Idx → EReal)
    (b : Fin 4) (t : Fin 2048) (n : Fin 11008) : EReal :=
  ∑ k : Fin 2048, x (ix3 b t ⟨2 * k.val, by have := k.isLt; omega⟩) * wEven qw s z n k
    + ∑ k : Fin 2048, x (ix3 b t ⟨2 * k.val + 1, by have := k.isLt; omega⟩) * wOdd qw s z n k

/-- The whole [4, 2048, 11008] result as one function of the four argument arrays. -/
def result (x : (⟨3, ![4, 2048, 4096]⟩ : Shape).Idx → EReal)
    (qw : (⟨2, ![11008, 2048]⟩ : Shape).Idx → BitVec 32) (s z : (⟨2, ![11008, 1]⟩ : Shape).Idx → EReal) :
    (⟨3, ![4, 2048, 11008]⟩ : Shape).Idx → EReal :=
  fun i => outRow x qw s z (i 0) (i 1) (i 2)

end DequantLinear

end
-- ==== Proof.KernelPayload.lean ====
/-
  What the kernel body stores, read at one entry (p, q) of its [1024, 256] output block.

  The body dequantizes the [256, 2048] block of packed words into two [256, 2048] weight blocks (low nibbles,
  high nibbles; each minus the row's zero point, times the row's scale), multiplies the even-column input block
  by the first and the odd-column input block by the second — both products contract the 2048 packed columns,
  row p of the input against row q of the weight — and adds the two products. At the ideal instance a change of
  float format is the identity and a product into a zero accumulator is the plain sum.
-/
import proofs.«410380_j50457275793412_1_alg».proof.Proof.Gen.KernelIdeal.Skeleton
import proofs.«410380_j50457275793412_1_alg».proof.Proof.Spec
import Idealize.ShloMosaic.Lib.Pipeline.Value
import Idealize.ShloMosaic.Lib.ValueIdx
import Idealize.ShloMosaic.PureOps.Ideal.Laws

noncomputable section

namespace DequantLinear.Kernel

open Cert.KernelIdeal Cert.KernelIdeal.Gen Idealize.ShloMosaic Idealize.ShloMosaic.ValueIdx

/-! ## The contraction's index maps, axis by axis -/

theorem lhs_axis0 (i : S1024x256.Idx) (c : dot_S1024x2048_S256x2048_S1024x256_1_1_0_0_n_n.contr.Idx) :
    (dot_S1024x2048_S256x2048_S1024x256_1_1_0_0_n_n.lhsIdx i c 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl
theorem lhs_axis1 (i : S1024x256.Idx) (c : dot_S1024x2048_S256x2048_S1024x256_1_1_0_0_n_n.contr.Idx) :
    (dot_S1024x2048_S256x2048_S1024x256_1_1_0_0_n_n.lhsIdx i c 1).val = (c ⟨0, by decide⟩).val :=
  dot_S1024x2048_S256x2048_S1024x256_1_1_0_0_n_n.lhsIdx_val_of_single rfl i c
theorem rhs_axis0 (i : S1024x256.Idx) (c : dot_S1024x2048_S256x2048_S1024x256_1_1_0_0_n_n.contr.Idx) :
    (dot_S1024x2048_S256x2048_S1024x256_1_1_0_0_n_n.rhsIdx i c 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl
theorem rhs_axis1 (i : S1024x256.Idx) (c : dot_S1024x2048_S256x2048_S1024x256_1_1_0_0_n_n.contr.Idx) :
    (dot_S1024x2048_S256x2048_S1024x256_1_1_0_0_n_n.rhsIdx i c 1).val = (c ⟨0, by decide⟩).val :=
  dot_S1024x2048_S256x2048_S1024x256_1_1_0_0_n_n.rhsIdx_val_of_single rfl i c

/-- The matrix product of the body into a zero accumulator, at entry (p, q): row p of the left block against
    row q of the right block, summed over the 2048 shared columns. -/
theorem matmul_rows (l : FVec Ideal S1024x2048 .bf16) (r : FVec Ideal S256x2048 .bf16) (p : Fin 1024) (q : Fin 256) :
    matmul dot_S1024x2048_S256x2048_S1024x256_1_1_0_0_n_n none l r (constant (F := Ideal) S1024x256 .f32 0x00000000#32) (ix2 p q)
      = ∑ k : Fin 2048, l (ix2 p k) * r (ix2 q k) := by
  show FloatOps.matmul dot_S1024x2048_S256x2048_S1024x256_1_1_0_0_n_n none l r (constant (F := Ideal) S1024x256 .f32 0x00000000#32) (ix2 p q) = _
  rw [Ideal.matmul_constant_zero_apply, ← Equiv.sum_comp (ValueIdx.contrEquiv1 dot_S1024x2048_S256x2048_S1024x256_1_1_0_0_n_n 2048 rfl rfl).symm]
  refine Finset.sum_congr rfl fun k _ => ?_
  have hk := ValueIdx.contrEquiv1_symm_val dot_S1024x2048_S256x2048_S1024x256_1_1_0_0_n_n 2048 rfl rfl k
  have el : dot_S1024x2048_S256x2048_S1024x256_1_1_0_0_n_n.lhsIdx (ix2 p q) ((ValueIdx.contrEquiv1 dot_S1024x2048_S256x2048_S1024x256_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S1024x2048_S256x2048_S1024x256_1_1_0_0_n_n.rhsIdx (ix2 p q) ((ValueIdx.contrEquiv1 dot_S1024x2048_S256x2048_S1024x256_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er]

/-! ## The dequantized weight blocks -/

/-- A per-row column [256, 1] broadcast along the 2048 columns, read at (q, k), is the column's entry at row q. -/
theorem column_bcast (v : FVec Ideal S256x1 .f32) (q : Fin 256) (k : Fin 2048) :
    broadcastTo S256x2048 v broadcasts_S256x1_S256x2048 (ix2 q k) = v (ix2 q 0) :=
  broadcastTo_apply v broadcasts_S256x1_S256x2048 (ix2 q k) (ix2 q 0) (fun a => match a with
    | ⟨0, _⟩ => by show q.val = if (256 : Nat) = 1 then 0 else q.val; rw [if_neg (by decide)]
    | ⟨1, _⟩ => by show 0 = if (1 : Nat) = 1 then 0 else k.val; rw [if_pos rfl])

/-- The body's payload at entry (p, q): the even-column input row p against the low-nibble weight row q, plus the
    odd-column input row p against the high-nibble weight row q. Here `zp` is the zero-point column and `sc` the
    scale column of the block's 256 weight rows. -/
theorem pay_apply (qw : Vec Ideal S256x2048 .i32) (zp sc : FVec Ideal S256x1 .f32)
    (ae ao : FVec Ideal S1024x2048 .bf16) (p : Fin 1024) (q : Fin 256) :
    k0_pay1 (F := Ideal) qw zp sc ae ao (ix2 p q)
      = ∑ k : Fin 2048, ae (ix2 p k) * ((lowNib (qw (ix2 q k)) - zp (ix2 q 0)) * sc (ix2 q 0))
        + ∑ k : Fin 2048, ao (ix2 p k) * ((highNib (qw (ix2 q k)) - zp (ix2 q 0)) * sc (ix2 q 0)) := by
  unfold k0_pay1
  refine (addf_apply _ _ _).trans ?_
  refine congrArg₂ (· + ·) ((matmul_rows _ _ p q).trans ?_) ((matmul_rows _ _ p q).trans ?_)
  · refine Finset.sum_congr rfl fun k _ => ?_
    rw [shapeCast_self]
    refine congrArg (ae (ix2 p k) * ·) ?_
    show (FloatOps.sitofp (F := Ideal) .f32 (IntOp.andi (qw (ix2 q k)) 15#32) - broadcastTo S256x2048 zp broadcasts_S256x1_S256x2048 (ix2 q k))
        * broadcastTo S256x2048 sc broadcasts_S256x1_S256x2048 (ix2 q k) = _
    rw [column_bcast, column_bcast]
    rfl
  · refine Finset.sum_congr rfl fun k _ => ?_
    rw [shapeCast_self]
    refine congrArg (ao (ix2 p k) * ·) ?_
    show (FloatOps.sitofp (F := Ideal) .f32 (IntOp.andi (IntOp.shrsi .vector (qw (ix2 q k)) 4#32) 15#32) - broadcastTo S256x2048 zp broadcasts_S256x1_S256x2048 (ix2 q k))
        * broadcastTo S256x2048 sc broadcasts_S256x1_S256x2048 (ix2 q k) = _
    rw [column_bcast, column_bcast]
    rfl

end DequantLinear.Kernel

end
-- ==== Proof.KernelBlocks.lean ====
/-
  From the kernel's blocks to its whole output array.

  The grid is 8 × 43. At point (i, j) the body reads rows [1024 i, 1024 i + 1024) of the even-column and of the
  odd-column input halves, rows [256 j, 256 j + 256) of the packed weight, of the scales and of the zero points,
  and writes the [1024, 256] block (i, j) of the [8192, 11008] output. Each entry it writes is the entry of one
  whole-array function (`outFlat`) at that block's place, and the 8 × 43 blocks tile the output, so after the
  run the output array is that function.
-/
import proofs.«410380_j50457275793412_1_alg».proof.Proof.Gen.KernelIdeal.Frame
import proofs.«410380_j50457275793412_1_alg».proof.Proof.KernelPayload
import Idealize.ShloMosaic.Lib.Pipeline.Value

set_option maxRecDepth 16384

noncomputable section

namespace DequantLinear.Kernel

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- One stored entry, over blocks given by their row maps: if the loaded blocks are the rows `R p` of the input
    halves and the rows `N q` of the weight arrays, the payload at (p, q) is the whole-array entry (R p, N q). -/
theorem block_entry (qw : Vec Ideal S256x2048 .i32) (zp sc : FVec Ideal S256x1 .f32) (ae ao : FVec Ideal S1024x2048 .bf16)
    (A0 A1 : S8192x2048.Idx → EReal) (QW : S11008x2048.Idx → BitVec 32) (SC ZP : S11008x1.Idx → EReal)
    (R : Fin 1024 → Fin 8192) (N : Fin 256 → Fin 11008)
    (hae : ∀ p k, ae (ix2 p k) = A0 (ix2 (R p) k)) (hao : ∀ p k, ao (ix2 p k) = A1 (ix2 (R p) k))
    (hqw : ∀ q k, qw (ix2 q k) = QW (ix2 (N q) k))
    (hzp : ∀ q, zp (ix2 q 0) = ZP (ix2 (N q) 0)) (hsc : ∀ q, sc (ix2 q 0) = SC (ix2 (N q) 0))
    (p : Fin 1024) (q : Fin 256) :
    k0_pay1 (F := Ideal) qw zp sc ae ao (ix2 p q) = outEntry A0 A1 QW SC ZP (R p) (N q) := by
  rw [pay_apply]
  unfold outEntry wEven wOdd
  simp only [hae, hao, hqw, hzp, hsc]

/-- The printed index maps, decided over the grid: the two input halves move with the output's row block, the
    weight, scale and zero-point windows with its column block, and all second block indices are 0. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = win0_5.index t (1 : Fin 2) ∧ win0_4.index t (1 : Fin 2) = 0
    ∧ win0_5.index t (0 : Fin 2) ≤ 7 ∧ win0_5.index t (1 : Fin 2) ≤ 42 :=
  (by decide +kernel : ∀ t : Fin grid0.N, _)

/-- Every block (i, j) of the output is some point's. -/
theorem idx_onto : ∀ (q0 : Fin 8) (q1 : Fin 43), ∃ t : Fin cfg0.N, win0_5.index t = ![q0.val, q1.val] :=
  (by decide +kernel : ∀ (q0 : Fin 8) (q1 : Fin 43), ∃ t : Fin grid0.N, win0_5.index t = ![q0.val, q1.val])

end DequantLinear.Kernel

end
-- ==== Proof.KernelReads.lean ====
/-
  Each window's block at a grid point, read entry by entry off the whole array.

  A block's entry (p, k) sits in its array at (block index × block extent + p, k): for the two input halves the
  row block is the output's row block, for the packed weight, the scales and the zero points it is the output's
  column block, and every window's second block index is 0.
-/
import proofs.«410380_j50457275793412_1_alg».proof.Proof.KernelBlocks

set_option maxRecDepth 16384

noncomputable section

namespace DequantLinear.Kernel

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The array row that holds row p of a point's input blocks. -/
abbrev rowOf (t : Fin cfg0.N) (p : Fin 1024) (h : win0_5.index t (0 : Fin 2) * 1024 + p.val < 8192) : Fin 8192 :=
  ⟨win0_5.index t (0 : Fin 2) * 1024 + p.val, h⟩
/-- The weight row that holds row q of a point's weight blocks. -/
abbrev wrowOf (t : Fin cfg0.N) (q : Fin 256) (h : win0_5.index t (1 : Fin 2) * 256 + q.val < 11008) : Fin 11008 :=
  ⟨win0_5.index t (1 : Fin 2) * 256 + q.val, h⟩

theorem row_lt (t : Fin cfg0.N) (p : Fin 1024) : win0_5.index t (0 : Fin 2) * 1024 + p.val < 8192 := by
  obtain ⟨e00, e01, e10, e11, e20, e21, e30, e31, e40, e41, b0, b1⟩ := idx_facts t
  have := p.isLt; omega
theorem wrow_lt (t : Fin cfg0.N) (q : Fin 256) : win0_5.index t (1 : Fin 2) * 256 + q.val < 11008 := by
  obtain ⟨e00, e01, e10, e11, e20, e21, e30, e31, e40, e41, b0, b1⟩ := idx_facts t
  have := q.isLt; omega

theorem emb_even (t : Fin cfg0.N) (p : Fin 1024) (k : Fin 2048) :
    ((cfg0.win 0).blk t).view.emb (ix2 p k) = ix2 (rowOf t p (row_lt t p)) k := by
  obtain ⟨e00, e01, e10, e11, e20, e21, e30, e31, e40, e41, b0, b1⟩ := idx_facts t
  funext a; apply Fin.ext
  match a with
  | ⟨0, _⟩ => show win0_0.index t (0 : Fin 2) * 1024 + 1 * p.val = win0_5.index t (0 : Fin 2) * 1024 + p.val; omega
  | ⟨1, _⟩ => show win0_0.index t (1 : Fin 2) * 2048 + 1 * k.val = k.val; omega
theorem emb_odd (t : Fin cfg0.N) (p : Fin 1024) (k : Fin 2048) :
    ((cfg0.win 1).blk t).view.emb (ix2 p k) = ix2 (rowOf t p (row_lt t p)) k := by
  obtain ⟨e00, e01, e10, e11, e20, e21, e30, e31, e40, e41, b0, b1⟩ := idx_facts t
  funext a; apply Fin.ext
  match a with
  | ⟨0, _⟩ => show win0_1.index t (0 : Fin 2) * 1024 + 1 * p.val = win0_5.index t (0 : Fin 2) * 1024 + p.val; omega
  | ⟨1, _⟩ => show win0_1.index t (1 : Fin 2) * 2048 + 1 * k.val = k.val; omega
theorem emb_packed (t : Fin cfg0.N) (q : Fin 256) (k : Fin 2048) :
    ((cfg0.win 2).blk t).view.emb (ix2 q k) = ix2 (wrowOf t q (wrow_lt t q)) k := by
  obtain ⟨e00, e01, e10, e11, e20, e21, e30, e31, e40, e41, b0, b1⟩ := idx_facts t
  funext a; apply Fin.ext
  match a with
  | ⟨0, _⟩ => show win0_2.index t (0 : Fin 2) * 256 + 1 * q.val = win0_5.index t (1 : Fin 2) * 256 + q.val; omega
  | ⟨1, _⟩ => show win0_2.index t (1 : Fin 2) * 2048 + 1 * k.val = k.val; omega
theorem emb_scale (t : Fin cfg0.N) (q : Fin 256) :
    ((cfg0.win 3).blk t).view.emb (ix2 q (0 : Fin 1)) = ix2 (wrowOf t q (wrow_lt t q)) (0 : Fin 1) := by
  obtain ⟨e00, e01, e10, e11, e20, e21, e30, e31, e40, e41, b0, b1⟩ := idx_facts t
  funext a; apply Fin.ext
  match a with
  | ⟨0, _⟩ => show win0_3.index t (0 : Fin 2) * 256 + 1 * q.val = win0_5.index t (1 : Fin 2) * 256 + q.val; omega
  | ⟨1, _⟩ => show win0_3.index t (1 : Fin 2) * 1 + 1 * 0 = 0; omega
theorem emb_zero (t : Fin cfg0.N) (q : Fin 256) :
    ((cfg0.win 4).blk t).view.emb (ix2 q (0 : Fin 1)) = ix2 (wrowOf t q (wrow_lt t q)) (0 : Fin 1) := by
  obtain ⟨e00, e01, e10, e11, e20, e21, e30, e31, e40, e41, b0, b1⟩ := idx_facts t
  funext a; apply Fin.ext
  match a with
  | ⟨0, _⟩ => show win0_4.index t (0 : Fin 2) * 256 + 1 * q.val = win0_5.index t (1 : Fin 2) * 256 + q.val; omega
  | ⟨1, _⟩ => show win0_4.index t (1 : Fin 2) * 1 + 1 * 0 = 0; omega
theorem emb_out (t : Fin cfg0.N) (p : Fin 1024) (q : Fin 256) :
    ((cfg0.win 5).blk t).view.emb (ix2 p q) = ix2 (rowOf t p (row_lt t p)) (wrowOf t q (wrow_lt t q)) := by
  funext a; apply Fin.ext
  match a with
  | ⟨0, _⟩ => show win0_5.index t (0 : Fin 2) * 1024 + 1 * p.val = win0_5.index t (0 : Fin 2) * 1024 + p.val; omega
  | ⟨1, _⟩ => show win0_5.index t (1 : Fin 2) * 256 + 1 * q.val = win0_5.index t (1 : Fin 2) * 256 + q.val; omega

theorem read_even (c : Dev nD) (t : Fin cfg0.N) (p : Fin 1024) (k : Fin 2048) :
    iblk m c 0 t (ix2 p k) = V m c main_v4 (ix2 (rowOf t p (row_lt t p)) k) := by
  show V m c main_v4 (((cfg0.win 0).blk t).view.emb (ix2 p k)) = _
  rw [emb_even]
theorem read_odd (c : Dev nD) (t : Fin cfg0.N) (p : Fin 1024) (k : Fin 2048) :
    iblk m c 1 t (ix2 p k) = V m c main_v7 (ix2 (rowOf t p (row_lt t p)) k) := by
  show V m c main_v7 (((cfg0.win 1).blk t).view.emb (ix2 p k)) = _
  rw [emb_odd]
theorem read_packed (c : Dev nD) (t : Fin cfg0.N) (q : Fin 256) (k : Fin 2048) :
    iblk m c 2 t (ix2 q k) = V m c main_arg1 (ix2 (wrowOf t q (wrow_lt t q)) k) := by
  show V m c main_arg1 (((cfg0.win 2).blk t).view.emb (ix2 q k)) = _
  rw [emb_packed]
theorem read_scale (c : Dev nD) (t : Fin cfg0.N) (q : Fin 256) :
    iblk m c 3 t (ix2 q (0 : Fin 1)) = V m c main_arg2 (ix2 (wrowOf t q (wrow_lt t q)) (0 : Fin 1)) := by
  show V m c main_arg2 (((cfg0.win 3).blk t).view.emb (ix2 q (0 : Fin 1))) = _
  rw [emb_scale]
theorem read_zero (c : Dev nD) (t : Fin cfg0.N) (q : Fin 256) :
    iblk m c 4 t (ix2 q (0 : Fin 1)) = V m c main_arg3 (ix2 (wrowOf t q (wrow_lt t q)) (0 : Fin 1)) := by
  show V m c main_arg3 (((cfg0.win 4).blk t).view.emb (ix2 q (0 : Fin 1))) = _
  rw [emb_zero]

end DequantLinear.Kernel

end
-- ==== Proof.KernelFlush.lean ====
/-
  What each grid point writes back, and the output array after the run.

  The payload the body stores at entry (p, q) of its block is the whole-array function `outFlat` at the place
  that entry has in the [8192, 11008] output (the block reads put every loaded entry at its place in the whole
  arrays). The 8 × 43 blocks tile the output, so after the last point the output array is `outFlat`.
-/
import proofs.«410380_j50457275793412_1_alg».proof.Proof.KernelReads

set_option maxRecDepth 16384

noncomputable section

namespace DequantLinear.Kernel

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- `outFlat` at an index given by its coordinates. -/
theorem outFlat_ix2 (a0 a1 : S8192x2048.Idx → EReal) (qw : S11008x2048.Idx → BitVec 32) (s z : S11008x1.Idx → EReal)
    (r : Fin 8192) (n : Fin 11008) : outFlat a0 a1 qw s z (ix2 r n) = outEntry a0 a1 qw s z r n := rfl

/-- What point `t` writes back is block `t` of `outFlat` of the arrays as the region finds them: the stored payload
    at (p, q) is the whole-array entry at the block's place, by the block reads. -/
theorem flushed_eq (c : Dev nD) (t : Fin cfg0.N) :
    (dats m 0 c).flushed 5 t = ((cfg0.win 5).blk t).view.read (Elt Ideal)
      (outFlat (V m c main_v4) (V m c main_v7) (V m c main_arg1) (V m c main_arg2) (V m c main_arg3)) := by
  show (cfg0.win 5).cut (grid0.coords t) ((dats m 0 c).after 5 t) = _
  rw [after0_5]
  unfold out0_5
  rw [View.canon_unit_zero hz]
  simp only [View.ld_unit_zero (S := S256x2048) hz, View.ld_unit_zero (S := S256x1) hz, View.ld_unit_zero (S := S1024x2048) hz]
  funext j
  obtain ⟨p, q, rfl⟩ : ∃ (p : Fin 1024) (q : Fin 256), j = ix2 p q := ⟨j 0, j 1, eq_ix2 j⟩
  show k0_pay1 (F := Ideal) (iblk m c 2 t) (iblk m c 4 t) (iblk m c 3 t) (iblk m c 0 t) (iblk m c 1 t) (ix2 p q) = _
  refine (block_entry (iblk m c 2 t) (iblk m c 4 t) (iblk m c 3 t) (iblk m c 0 t) (iblk m c 1 t)
    (V m c main_v4) (V m c main_v7) (V m c main_arg1) (V m c main_arg2) (V m c main_arg3)
    (fun p' => rowOf t p' (row_lt t p')) (fun q' => wrowOf t q' (wrow_lt t q'))
    (read_even m c t) (read_odd m c t) (read_packed m c t) (read_zero m c t) (read_scale m c t) p q).trans ?_
  show _ = outFlat (V m c main_v4) (V m c main_v7) (V m c main_arg1) (V m c main_arg2) (V m c main_arg3) (((cfg0.win 5).blk t).view.emb (ix2 p q))
  rw [emb_out]
  exact (outFlat_ix2 _ _ _ _ _ _ _).symm

/-- An index of the output array is in point `t`'s block iff each coordinate is in the block's range on its axis. -/
theorem mem_blk (t : Fin cfg0.N) (i : S8192x11008.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v8).slice (win0_5.rect t)).set ↔ _
  rw [View.set_slice_whole, Rect.mem_set_unit]
  exact Iff.rfl

/-- Every index of the output lies in the block of the point whose block indices are (row / 1024, column / 256). -/
theorem cover (i : S8192x11008.Idx) : ∃ t : Fin cfg0.N, (cfg0.win 5).flush t = true ∧ i ∈ ((cfg0.win 5).blk t).view.set := by
  have hi0 : (i 0).val < 8192 := (i 0).isLt
  have hi1 : (i 1).val < 11008 := (i 1).isLt
  obtain ⟨t, ht⟩ := idx_onto ⟨(i 0).val / 1024, by omega⟩ ⟨(i 1).val / 256, by omega⟩
  have q0 : win0_5.index t (0 : Fin 2) = (i 0).val / 1024 := congrFun ht 0
  have q1 : win0_5.index t (1 : Fin 2) = (i 1).val / 256 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 256 ≤ (i 1).val ∧ (i 1).val < win0_5.index t (1 : Fin 2) * 256 + 256; omega

/-- The output array after the run is `outFlat` of the arrays as the region finds them. -/
theorem final (c : Dev nD) : (dats m 0 c).arrAt 5 cfg0.N
    = outFlat (V m c main_v4) (V m c main_v7) (V m c main_arg1) (V m c main_arg2) (V m c main_arg3) :=
  (dats m 0 c).arrAt_eq_of_cover 5
    (outFlat (V m c main_v4) (V m c main_v7) (V m c main_arg1) (V m c main_arg2) (V m c main_arg3))
    (fun t _ => flushed_eq m c t) cover

end DequantLinear.Kernel

end
-- ==== Proof.KernelHost.lean ====
/-
  The host operations around the kernel, read at an index.

  Before the kernel the input [4, 2048, 4096] is flattened to [8192, 4096] (row b · 2048 + t), its 4096 columns are
  regrouped as [2048, 2] pairs, and the pair's first and second members are sliced out: the even-column half is
  the input at columns 2k, the odd-column half the input at columns 2k + 1 (the change to bfloat16 that follows is
  the identity at the ideal instance). After the kernel its [8192, 11008] output is reshaped to [4, 2048, 11008]:
  entry (b, t, n) is entry (b · 2048 + t, n).
-/
import proofs.«410380_j50457275793412_1_alg».proof.Proof.Gen.KernelIdeal.Frame
import Idealize.ShloMosaic.Lib.Pipeline.Value
import Idealize.ShloMosaic.Lib.ValueIdx
import Idealize.ShloMosaic.Lib.StableHlo.Run

noncomputable section

namespace DequantLinear.Kernel

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The member `par` (0 or 1) of every column pair of the flattened input, as the host computes it. -/
def halfOf (x : S4x2048x4096.Idx → EReal) (par : Nat) (hs : S8192x2048x2.Slices ![0, 0, par] S8192x2048x1) : S8192x2048.Idx → EReal :=
  truncf (F := Ideal) .bf16 (shapeCast S8192x2048 (extractStridedSlice S8192x2048x1 ![0, 0, par]
    (shapeCast S8192x2048x2 (shapeCast S8192x4096 x shapeCasts_S4x2048x4096_S8192x4096) shapeCasts_S8192x4096_S8192x2048x2)
      hs) shapeCasts_S8192x2048x1_S8192x2048) bitsLt_bf16_f32

/-- The even-column half as the region finds it. -/
theorem V_even (c : Dev nD) :
    (V m c main_v4 : S8192x2048.Idx → EReal)
      = halfOf (m ((c : Thread nD τ).loc main_arg0)) 0 slices_S8192x2048x2_S8192x2048x1_0_0_0 := by
  show StableHlo.after hostOps0 (fun b => m (c, b)) (Proc.devRef .tc main_v4) = _
  after_results
  rfl

/-- The odd-column half as the region finds it. -/
theorem V_odd (c : Dev nD) :
    (V m c main_v7 : S8192x2048.Idx → EReal)
      = halfOf (m ((c : Thread nD τ).loc main_arg0)) 1 slices_S8192x2048x2_S8192x2048x1_0_0_1 := by
  show StableHlo.after hostOps0 (fun b => m (c, b)) (Proc.devRef .tc main_v7) = _
  after_results
  rfl

/-- Member `par` of pair k in flattened row b · 2048 + t is the input at (b, t, 2k + par). -/
theorem halfOf_apply (x : S4x2048x4096.Idx → EReal) (par : Nat) (hpar : par < 2)
    (hs : S8192x2048x2.Slices ![0, 0, par] S8192x2048x1) (b : Fin 4) (t : Fin 2048) (k : Fin 2048) :
    halfOf x par hs (ix2 ⟨b.val * 2048 + t.val, by have := b.isLt; have := t.isLt; omega⟩ k)
      = x (ix3 b t ⟨2 * k.val + par, by have := k.isLt; omega⟩) := by
  have hb := b.isLt; have ht := t.isLt; have hk := k.isLt
  unfold halfOf
  refine (truncf_apply (φ := .f32) (ψ := .bf16) _ bitsLt_bf16_f32 _).trans ?_
  refine (shapeCast_apply _ shapeCasts_S8192x2048x1_S8192x2048 _
    (ix3 (⟨b.val * 2048 + t.val, by omega⟩ : Fin 8192) k (0 : Fin 1)) ?_).trans ?_
  · rewrite [Shape.rowMajor_val_three, Shape.rowMajor_val_two]
    show ((b.val * 2048 + t.val) * 2048 + k.val) * 1 + 0 = (b.val * 2048 + t.val) * 2048 + k.val
    omega
  refine (extractStridedSlice_apply _ _ hs _
    (ix3 (⟨b.val * 2048 + t.val, by omega⟩ : Fin 8192) k (⟨par, hpar⟩ : Fin 2)) ?_).trans ?_
  · intro a
    match a with
    | ⟨0, _⟩ => show b.val * 2048 + t.val = 0 + (b.val * 2048 + t.val); omega
    | ⟨1, _⟩ => show k.val = 0 + k.val; omega
    | ⟨2, _⟩ => show par = par + 0; omega
  refine (shapeCast_apply _ shapeCasts_S8192x4096_S8192x2048x2 _
    (ix2 (⟨b.val * 2048 + t.val, by omega⟩ : Fin 8192) (⟨2 * k.val + par, by omega⟩ : Fin 4096)) ?_).trans ?_
  · rewrite [Shape.rowMajor_val_three, Shape.rowMajor_val_two]
    show (b.val * 2048 + t.val) * 4096 + (2 * k.val + par) = ((b.val * 2048 + t.val) * 2048 + k.val) * 2 + par
    omega
  refine shapeCast_apply _ shapeCasts_S4x2048x4096_S8192x4096 _ (ix3 b t (⟨2 * k.val + par, by omega⟩ : Fin 4096)) ?_
  rewrite [Shape.rowMajor_val_three, Shape.rowMajor_val_two]
  show (b.val * 2048 + t.val) * 4096 + (2 * k.val + par) = (b.val * 2048 + t.val) * 4096 + (2 * k.val + par)
  rfl

/-- The reshape after the kernel: entry (b, t, n) of the result is entry (b · 2048 + t, n) of the kernel's output. -/
theorem unflatten_apply (y : S8192x11008.Idx → EReal) (b : Fin 4) (t : Fin 2048) (n : Fin 11008) :
    shapeCast S4x2048x11008 y shapeCasts_S8192x11008_S4x2048x11008 (ix3 b t n)
      = y (ix2 ⟨b.val * 2048 + t.val, by have := b.isLt; have := t.isLt; omega⟩ n) := by
  refine shapeCast_apply _ shapeCasts_S8192x11008_S4x2048x11008 _ _ ?_
  rewrite [Shape.rowMajor_val_three, Shape.rowMajor_val_two]
  show (b.val * 2048 + t.val) * 11008 + n.val = (b.val * 2048 + t.val) * 11008 + n.val
  rfl

end DequantLinear.Kernel

end
-- ==== Proof.KernelRun.lean ====
/-
  The kernel program's run, read: its result array is the specification of the four argument arrays.

  The kernel's output array is `outFlat` of the two input halves and the weight arrays as the kernel finds them;
  the halves are the input at its even and odd columns, and the last reshape only renames the rows
  b · 2048 + t as (b, t). Composed, entry (b, t, n) of the result is `outRow` of the arguments.
-/
import proofs.«410380_j50457275793412_1_alg».proof.Proof.KernelFlush
import proofs.«410380_j50457275793412_1_alg».proof.Proof.KernelHost

noncomputable section

namespace DequantLinear.Kernel

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The reshaped output of the kernel, entry by entry, in terms of the argument arrays: the input halves are the
    input's even and odd columns, the weight arrays are the arguments themselves. -/
theorem unflatten_outFlat (c : Dev nD) :
    shapeCast S4x2048x11008 (outFlat (V m c main_v4) (V m c main_v7) (V m c main_arg1) (V m c main_arg2) (V m c main_arg3))
        shapeCasts_S8192x11008_S4x2048x11008
      = result (m ((c : Thread nD τ).loc main_arg0)) (m ((c : Thread nD τ).loc main_arg1))
          (m ((c : Thread nD τ).loc main_arg2)) (m ((c : Thread nD τ).loc main_arg3)) := by
  funext i
  obtain ⟨b, t, n, rfl⟩ : ∃ (b : Fin 4) (t : Fin 2048) (n : Fin 11008), i = ix3 b t n := ⟨i 0, i 1, i 2, eq_ix3 i⟩
  rw [unflatten_apply, outFlat_ix2]
  show _ = outRow _ _ _ _ b t n
  unfold outEntry outRow
  rw [V_main_arg1 m c, V_main_arg2 m c, V_main_arg3 m c]
  refine congrArg₂ (· + ·) (Finset.sum_congr rfl fun k _ => ?_) (Finset.sum_congr rfl fun k _ => ?_)
  · exact congrArg (· * wEven _ _ _ n k)
      ((congrFun (V_even m c) _).trans (halfOf_apply _ 0 (by decide) slices_S8192x2048x2_S8192x2048x1_0_0_0 b t k))
  · exact congrArg (· * wOdd _ _ _ n k)
      ((congrFun (V_odd m c) _).trans (halfOf_apply _ 1 (by decide) slices_S8192x2048x2_S8192x2048x1_0_0_1 b t k))

/-- What the program's last host line leaves in the result buffer. -/
theorem tail_eq (c : Dev nD) :
    Pipeline.afterTail₀ cfgs (dats m) 0 (V0 m) [hostOps1] c main_v9
      = result (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v9) = _
  after_results
  -- the kernel's output array, as the tail finds it, is `outFlat` of the arrays at the region's entry
  have hw : Pipeline.withArrays (cfgs 0).spec c (V0 m c) (fun w => (dats m 0 c).arrAt w (cfgs 0).N) (Proc.tc.devRef main_v8)
      = outFlat (V m c main_v4) (V m c main_v7) (V m c main_arg1) (V m c main_arg2) (V m c main_arg3) :=
    (Pipeline.withArrays_arr spec0 launch0.win.arr_inj c _ _ 5).trans (final m c)
  rw [hw]
  refine Eq.trans ?_ (unflatten_outFlat m c)
  generalize outFlat (V m c main_v4) (V m c main_v7) (V m c main_arg1) (V m c main_arg2) (V m c main_arg3) = Y
  rfl

/-- The kernel program's run: every weakly fair execution terminates with the result buffer at the specification
    of the argument arrays, and the argument arrays unchanged. -/
theorem run : θ_run defs (onTc (τ := τ) (main (F := Ideal))) ⟨m, fun _ => 0, ρ⟩ fun r => ∀ c : Dev nD,
      r.2.mem ((c.tc : Thread nD τ).loc main_v9)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v9 (Pipeline.mem_restRefs_of main_v9 (by decide) (by decide))).trans (tail_eq m c),
       ((h c).2 main_arg0 (Pipeline.mem_restRefs_of main_arg0 (by decide) (by decide))).trans (W_main_arg0 m (dats m) c),
       ((h c).1 2).trans (((dats m 0 c).arrAt_in 2 rfl _).trans ((A_eq m c 2).trans (V_main_arg1 m c))),
       ((h c).1 3).trans (((dats m 0 c).arrAt_in 3 rfl _).trans ((A_eq m c 3).trans (V_main_arg2 m c))),
       ((h c).1 4).trans (((dats m 0 c).arrAt_in 4 rfl _).trans ((A_eq m c 4).trans (V_main_arg3 m c)))⟩)
    (run_main m ρ)

end DequantLinear.Kernel

end
-- ==== Proof.SumSplit.lean ====
/-
  A sum over `Fin (2 * n)` is the sum of its even-indexed terms plus the sum of its odd-indexed terms.
  Only commutativity and associativity of the addition are used, so the statement holds in any additive
  commutative monoid — in particular on the extended reals, where no cancellation is available.
-/
import Mathlib.Algebra.BigOperators.Fin
import Mathlib.Logic.Equiv.Fin.Basic

namespace DequantLinear

open Finset

/-- The pairs (k, p) with k < n and p < 2 enumerate `Fin (n * 2)` as 2 * k + p (`finProdFinEquiv`), so a sum over
    `Fin (n * 2)` is a double sum; the inner sum over the two parities is two terms. -/
theorem sum_even_odd {M : Type*} [AddCommMonoid M] (n : ℕ) (f : Fin (n * 2) → M) :
    ∑ K : Fin (n * 2), f K
      = ∑ k : Fin n, f ⟨2 * k.val, by have := k.isLt; omega⟩ + ∑ k : Fin n, f ⟨2 * k.val + 1, by have := k.isLt; omega⟩ := by
  rw [← Equiv.sum_comp (finProdFinEquiv (m := n) (n := 2)) f, Fintype.sum_prod_type, ← Finset.sum_add_distrib]
  refine Finset.sum_congr rfl fun k _ => ?_
  rw [Fin.sum_univ_two]
  congr 1
  · exact congrArg f (Fin.ext (by simp [finProdFinEquiv]))
  · exact congrArg f (Fin.ext (by simp [finProdFinEquiv]; omega))

/-- The same at the literal extents of this kernel: 4096 input features split into 2048 even and 2048 odd columns. -/
theorem sum_even_odd_4096 {M : Type*} [AddCommMonoid M] (f : Fin 4096 → M) :
    ∑ K : Fin 4096, f K
      = ∑ k : Fin 2048, f ⟨2 * k.val, by have := k.isLt; omega⟩ + ∑ k : Fin 2048, f ⟨2 * k.val + 1, by have := k.isLt; omega⟩ :=
  sum_even_odd 2048 f

end DequantLinear
-- ==== Proof.RefValue.lean ====
/-
  The reference, read index by index, is the specification.

  The reference interleaves the low and high nibbles into one [11008, 4096] weight (column 2k the low nibble of
  packed column k, column 2k + 1 its high nibble), subtracts the zero point, multiplies by the scale, and contracts
  all 4096 columns against the input row. Splitting that one sum into its even and its odd columns gives the two
  sums of the specification; only commutativity and associativity of addition on the extended reals are used.
  The host's arithmetic shift right and the vector unit's are the same function of 32-bit words.
-/
import proofs.«410380_j50457275793412_1_alg».proof.Proof.Gen.ReferenceIdeal.Read
import proofs.«410380_j50457275793412_1_alg».proof.Proof.Spec
import proofs.«410380_j50457275793412_1_alg».proof.Proof.SumSplit
import Idealize.ShloMosaic.Lib.KernelVsHost
import Idealize.ShloMosaic.Lib.Pipeline.Value
import Idealize.ShloMosaic.Lib.ValueIdx

noncomputable section

namespace DequantLinear.Ref

open Cert.ReferenceIdeal Cert.ReferenceIdeal.Gen Cert.ReferenceIdeal.Read
open Idealize.ShloMosaic Idealize.ShloMosaic.ValueIdx

/-- The even column 2k of the interleaved weight's row n. -/
abbrev evenCol (k : Fin 2048) : Fin 4096 := ⟨2 * k.val, by have := k.isLt; omega⟩
/-- The odd column 2k + 1. -/
abbrev oddCol (k : Fin 2048) : Fin 4096 := ⟨2 * k.val + 1, by have := k.isLt; omega⟩

/-- Column 2k of the interleaved nibbles is the low nibble of packed column k. -/
theorem interleaved_even (x1 : (⟨S11008x2048, .i32⟩ : BufTy).Contents (Elt Ideal)) (n : Fin 11008) (k : Fin 2048) :
    val_main_v11 (F := Ideal) x1 (ix2 n (evenCol k)) = lowNib (x1 (ix2 n k)) := by
  have hn := n.isLt; have hk := k.isLt
  rw [val_main_v11_apply]
  unfold val_main_v10
  refine (concatenate_pair_apply_left (2 : Fin S11008x2048x2.rank) _ _ concatenates_S11008x2048x1_S11008x2048x1_S11008x2048x2_d2 _ rfl
    (ix3 n k (0 : Fin 1)) (fun b => ?_)).trans ?_
  · match b with
    | ⟨0, _⟩ => show n.val = (n.val * 4096 + 2 * k.val) / 4096; omega
    | ⟨1, _⟩ => show k.val = (n.val * 4096 + 2 * k.val) / 2 % 2048; omega
    | ⟨2, _⟩ => show 0 = (n.val * 4096 + 2 * k.val) % 2; omega
  rw [val_main_v8_apply]
  have e : idx_main_v8 (ix3 n k (0 : Fin 1)) = ix2 n k := funext fun a => by
    match a with
    | ⟨0, _⟩ => rfl
    | ⟨1, _⟩ => rfl
  rw [e]
  rfl

/-- Column 2k + 1 of the interleaved nibbles is the high nibble of packed column k. -/
theorem interleaved_odd (x1 : (⟨S11008x2048, .i32⟩ : BufTy).Contents (Elt Ideal)) (n : Fin 11008) (k : Fin 2048) :
    val_main_v11 (F := Ideal) x1 (ix2 n (oddCol k)) = highNib (x1 (ix2 n k)) := by
  have hn := n.isLt; have hk := k.isLt
  rw [val_main_v11_apply]
  unfold val_main_v10
  refine (concatenate_pair_apply_right (2 : Fin S11008x2048x2.rank) _ _ concatenates_S11008x2048x1_S11008x2048x1_S11008x2048x2_d2 _ rfl rfl
    (ix3 n k (0 : Fin 1)) (fun b hb => ?_) ?_).trans ?_
  · match b with
    | ⟨0, _⟩ => show n.val = (n.val * 4096 + (2 * k.val + 1)) / 4096; omega
    | ⟨1, _⟩ => show k.val = (n.val * 4096 + (2 * k.val + 1)) / 2 % 2048; omega
    | ⟨2, _⟩ => exact absurd rfl hb
  · show 0 + 1 = (n.val * 4096 + (2 * k.val + 1)) % 2
    omega
  rw [val_main_v9_apply]
  have e : idx_main_v9 (ix3 n k (0 : Fin 1)) = ix2 n k := funext fun a => by
    match a with
    | ⟨0, _⟩ => rfl
    | ⟨1, _⟩ => rfl
  rw [e]
  show (((IntOp.andi (IntOp.shrsi .host (x1 (ix2 n k)) 4#32) 15#32).toInt : ℝ) : EReal) = highNib (x1 (ix2 n k))
  rw [shrsi_unit .host .vector]
  rfl

/-- The reference's dequantized weight at row n, even column 2k. -/
theorem weight_even (x1 : (⟨S11008x2048, .i32⟩ : BufTy).Contents (Elt Ideal)) (x2 x3 : (⟨S11008x1, .f32⟩ : BufTy).Contents (Elt Ideal))
    (n : Fin 11008) (k : Fin 2048) :
    val_main_v15 (F := Ideal) x1 x2 x3 (ix2 n (evenCol k)) = wEven x1 x2 x3 n k := by
  rw [val_main_v15_apply, val_main_v13_apply, val_main_v14_apply, val_main_v12_apply, interleaved_even]
  have e12 : idx_main_v12 (ix2 n (evenCol k)) = ix2 n (0 : Fin 1) := funext fun a => by
    match a with
    | ⟨0, _⟩ => rfl
    | ⟨1, _⟩ => rfl
  have e14 : idx_main_v14 (ix2 n (evenCol k)) = ix2 n (0 : Fin 1) := funext fun a => by
    match a with
    | ⟨0, _⟩ => rfl
    | ⟨1, _⟩ => rfl
  rw [e12, e14]
  rfl

/-- The reference's dequantized weight at row n, odd column 2k + 1. -/
theorem weight_odd (x1 : (⟨S11008x2048, .i32⟩ : BufTy).Contents (Elt Ideal)) (x2 x3 : (⟨S11008x1, .f32⟩ : BufTy).Contents (Elt Ideal))
    (n : Fin 11008) (k : Fin 2048) :
    val_main_v15 (F := Ideal) x1 x2 x3 (ix2 n (oddCol k)) = wOdd x1 x2 x3 n k := by
  rw [val_main_v15_apply, val_main_v13_apply, val_main_v14_apply, val_main_v12_apply, interleaved_odd]
  have e12 : idx_main_v12 (ix2 n (oddCol k)) = ix2 n (0 : Fin 1) := funext fun a => by
    match a with
    | ⟨0, _⟩ => rfl
    | ⟨1, _⟩ => rfl
  have e14 : idx_main_v14 (ix2 n (oddCol k)) = ix2 n (0 : Fin 1) := funext fun a => by
    match a with
    | ⟨0, _⟩ => rfl
    | ⟨1, _⟩ => rfl
  rw [e12, e14]
  rfl

/-- The reference's result is the specification: the contraction over 4096 columns, split by parity. -/
theorem ref_eq (x0 : (⟨S4x2048x4096, .f32⟩ : BufTy).Contents (Elt Ideal)) (x1 : (⟨S11008x2048, .i32⟩ : BufTy).Contents (Elt Ideal))
    (x2 x3 : (⟨S11008x1, .f32⟩ : BufTy).Contents (Elt Ideal)) :
    val_main_v16 (F := Ideal) x0 x1 x2 x3 = result x0 x1 x2 x3 := by
  funext i
  obtain ⟨b, t, n, rfl⟩ : ∃ (b : Fin 4) (t : Fin 2048) (n : Fin 11008), i = ix3 b t n := ⟨i 0, i 1, i 2, eq_ix3 i⟩
  rw [val_main_v16_apply, sum_even_odd_4096]
  show _ = outRow x0 x1 x2 x3 b t n
  unfold outRow
  refine congrArg₂ (· + ·) (Finset.sum_congr rfl fun k _ => ?_) (Finset.sum_congr rfl fun k _ => ?_)
  · have el : lidx_main_v16 (ix3 b t n) (evenCol k) = ix3 b t (evenCol k) := funext fun a => by
      match a with
      | ⟨0, _⟩ => rfl
      | ⟨1, _⟩ => rfl
      | ⟨2, _⟩ => rfl
    have er : ridx_main_v16 (ix3 b t n) (evenCol k) = ix2 n (evenCol k) := funext fun a => by
      match a with
      | ⟨0, _⟩ => rfl
      | ⟨1, _⟩ => rfl
    show x0 (lidx_main_v16 (ix3 b t n) (evenCol k)) * val_main_v15 (F := Ideal) x1 x2 x3 (ridx_main_v16 (ix3 b t n) (evenCol k)) = _
    rw [el, er, weight_even]
  · have el : lidx_main_v16 (ix3 b t n) (oddCol k) = ix3 b t (oddCol k) := funext fun a => by
      match a with
      | ⟨0, _⟩ => rfl
      | ⟨1, _⟩ => rfl
      | ⟨2, _⟩ => rfl
    have er : ridx_main_v16 (ix3 b t n) (oddCol k) = ix2 n (oddCol k) := funext fun a => by
      match a with
      | ⟨0, _⟩ => rfl
      | ⟨1, _⟩ => rfl
    show x0 (lidx_main_v16 (ix3 b t n) (oddCol k)) * val_main_v15 (F := Ideal) x1 x2 x3 (ridx_main_v16 (ix3 b t n) (oddCol k)) = _
    rw [el, er, weight_odd]

end DequantLinear.Ref

end
-- ==== Proof.lean ====
/-
  A linear layer with 4-bit packed weights: out[b, t, n] = Σ_K inp[b, t, K] · W[n, K], where row n of W is dequantized
  from packed words — column 2k from the low nibble and column 2k + 1 from the high nibble of word (n, k), each
  minus the row's zero point, times the row's scale.

  The kernel never interleaves the nibbles. It splits the INPUT into its even and odd columns, multiplies the
  even half by the low-nibble weights and the odd half by the high-nibble weights (block by block over an 8 × 43
  grid), and adds the two products. The reference interleaves the nibbles into one [11008, 4096] weight and
  contracts all 4096 columns at once.

  Over the extended reals the two agree entry by entry: the reference's sum over the 4096 columns, grouped by the
  parity of the column, is the kernel's two sums over 2048 columns each. Only commutativity and associativity of
  addition are needed, so the finiteness of the inputs is never used; the changes of float format are the
  identity there, and a matrix product into a zero accumulator is the plain sum.

  The three frames are the generated frame runs (the reference's is its generated run with the result dropped),
  and the idealization rewrote nothing, so it preserves the kernel trivially.
-/
import proofs.«410380_j50457275793412_1_alg».proof.Defs
import proofs.«410380_j50457275793412_1_alg».proof.Proof.Gen.Kernel
import proofs.«410380_j50457275793412_1_alg».proof.Proof.Gen.Kernel.Skeleton
import proofs.«410380_j50457275793412_1_alg».proof.Proof.Gen.Kernel.Launch
import proofs.«410380_j50457275793412_1_alg».proof.Proof.Gen.Kernel.Points
import proofs.«410380_j50457275793412_1_alg».proof.Proof.Gen.Kernel.Frame
import proofs.«410380_j50457275793412_1_alg».proof.Proof.Gen.KernelIdeal
import proofs.«410380_j50457275793412_1_alg».proof.Proof.Gen.KernelIdeal.Skeleton
import proofs.«410380_j50457275793412_1_alg».proof.Proof.Gen.KernelIdeal.Launch
import proofs.«410380_j50457275793412_1_alg».proof.Proof.Gen.KernelIdeal.Points
import proofs.«410380_j50457275793412_1_alg».proof.Proof.Gen.KernelIdeal.Frame
import proofs.«410380_j50457275793412_1_alg».proof.Proof.Gen.ReferenceIdeal
import proofs.«410380_j50457275793412_1_alg».proof.Proof.Gen.Pre_finite_inputs
import proofs.«410380_j50457275793412_1_alg».proof.Proof.Gen.ReferenceIdeal.Run
import proofs.«410380_j50457275793412_1_alg».proof.Proof.Gen.ReferenceIdeal.Read
import proofs.«410380_j50457275793412_1_alg».proof.Proof.KernelRun
import proofs.«410380_j50457275793412_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result buffer at the one function `DequantLinear.result` of the argument arrays:
    the kernel by its blocks and the host lines around them, the reference by its stages read index by index and
    the even/odd regrouping of its sum. -/
theorem algebraic : Cert.algebraic_KernelIdeal_ReferenceIdeal := by
  intro m ρ m' ρ' _ hagree
  refine ⟨fun c => DequantLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    DequantLinear.Kernel.run m ρ, ?_⟩
  refine (θ_run Cert.ReferenceIdeal.defs _ _).mono
    (fun _ h c => ⟨(h c).1.trans ((Cert.ReferenceIdeal.Read.val_main_v16_eq _ _ _ _).trans ?_), (h c).2⟩)
    (Cert.ReferenceIdeal.Value.run (F := Ideal) m' ρ')
  rw [DequantLinear.Ref.ref_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
